-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S3072x1024 : Shape := ⟨2, ![3072, 1024]⟩
abbrev S3072 : Shape := ⟨1, ![3072]⟩
abbrev S1024x3 : Shape := ⟨2, ![1024, 3]⟩
abbrev S1024x1024 : Shape := ⟨2, ![1024, 1024]⟩
abbrev S1024 : Shape := ⟨1, ![1024]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S1024x3 : S_.BroadcastsInDim S1024x3 (![] : Fin 0 → Fin S1024x3.rank)
  reducesTo_S1024x3_S_d0_1 : S1024x3.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024x1024 .f32) (main_arg5 : FVec F S1024 .f32) (main_v13 : IVec S_ 1) (main_v16 : IVec S1024x3 1) : IVec S_ 1 :=
  let main_c_5 : IVec S_ 1 := constantI S_ 1 1#1
  let main_v17 : IVec S_ 1 := (fun x v => Host.reduce IntOp.andi x v reducesTo_S1024x3_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  main_v28

def fn {F : FTy → Type} [FloatOps F] (main_arg0 : FVec F S16x2048x1024 .f32) (main_arg1 : FVec F S3072x1024 .f32) (main_arg2 : FVec F S3072 .f32) (main_arg3 : FVec F S1024x3 .f32) (main_arg4 : FVec F S1024x1024 .f32) (main_arg5 : FVec F S1024 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S3072x1024 .f32 := Host.absf main_arg1
  let main_cst_0 : FVec F S_ .f32 := constant S_ .f32 0x7F800000#32
  let main_v5 : FVec F S3072x1024 .f32 := broadcastInDim S3072x1024 ![] bcast_S_S3072x1024 main_cst_0
  let main_v6 : IVec S3072x1024 1 := cmpf .olt main_v4 main_v5
  let main_c_1 : IVec S_ 1 := constantI S_ 1 1#1
  let main_v7 : IVec S_ 1 := (fun x v => Host.reduce IntOp.andi x v reducesTo_S3072x1024_S_d0_1 h_S_) main_v6 main_c_1
  let main_v8 : IVec S_ 1 := andi main_v3 main_v7
  let main_v9 : FVec F S3072 .f32 := Host.absf main_arg2
  let main_cst_2 : FVec F S_ .f32 := constant S_ .f32 0x7F800000#32
  let main_v10 : FVec F S3072 .f32 := broadcastInDim S3072 ![] bcast_S_S3072 main_cst_2
  let main_v11 : IVec S3072 1 := cmpf .olt main_v9 main_v10
  let main_c_3 : IVec S_ 1 := constantI S_ 1 1#1
  let main_v12 : IVec S_ 1 := (fun x v => Host.reduce IntOp.andi x v reducesTo_S3072_S_d0 h_S_) main_v11 main_c_3
  let main_v13 : IVec S_ 1 := andi main_v8 main_v12
  let main_v14 : FVec F S1024x3 .f32 := Host.absf main_arg3
  let main_cst_4 : FVec F S_ .f32 := constant S_ .f32 0x7F800000#32
  let main_v15 : FVec F S1024x3 .f32 := broadcastInDim S1024x3 ![] bcast_S_S1024x3 main_cst_4
  let main_v16 : IVec S1024x3 1 := cmpf .olt main_v14 main_v15
  fn_part1 (F := F) main_arg4 main_arg5 main_v13 main_v16
-- ==== Kernel.lean ====
abbrev S16x2048x1024 : Shape := ⟨3, ![16, 2048, 1024]⟩
abbrev S3072x1024 : Shape := ⟨2, ![3072, 1024]⟩
abbrev S3072 : Shape := ⟨1, ![3072]⟩
abbrev S1024x3 : Shape := ⟨2, ![1024, 3]⟩
abbrev S1024x1024 : Shape := ⟨2, ![1024, 1024]⟩
abbrev S1024 : Shape := ⟨1, ![1024]⟩
abbrev S1024x3072 : Shape := ⟨2, ![1024, 3072]⟩
abbrev S1x256x1024 : Shape := ⟨3, ![1, 256, 1024]⟩
abbrev S2x1024 : Shape := ⟨2, ![2, 1024]⟩
abbrev S256x1024 : Shape := ⟨2, ![256, 1024]⟩
abbrev S256x3072 : Shape := ⟨2, ![256, 3072]⟩
abbrev S1x3072 : Shape := ⟨2, ![1, 3072]⟩
abbrev S258x1024 : Shape := ⟨2, ![258, 1024]⟩
abbrev S1024x1 : Shape := ⟨2, ![1024, 1]⟩
abbrev S1x1024 : Shape := ⟨2, ![1, 1024]⟩

abbrev nBuf : Space → Nat
  | .hbm => 11
  | .vmem => 10
  | .smem => 0
  | _ => 0

abbrev bufTy : (tb : Table) → Fin (tcTables nBuf tb) → BufTy
  | .hbm, ⟨0, _⟩ => ⟨S16x2048x1024, .f32⟩
  | .hbm, ⟨1, _⟩ => ⟨S3072x1024, .f32⟩
  | .hbm, ⟨2, _⟩ => ⟨S3072, .f32⟩
  | .hbm, ⟨3, _⟩ => ⟨S1024x3, .f32⟩
  | .hbm, ⟨4, _⟩ => ⟨S1024x1024, .f32⟩
  | .hbm, ⟨5, _⟩ => ⟨S1024, .f32⟩
  | .hbm, ⟨6, _⟩ => ⟨S1024x3072, .f32⟩
  | .hbm, ⟨7, _⟩ => ⟨S1024x3072, .bf16⟩
  | .hbm, ⟨8, _⟩ => ⟨S1024x1024, .f32⟩
  | .hbm, ⟨9, _⟩ => ⟨S1024x1024, .bf16⟩
  | .hbm, ⟨10, _⟩ => ⟨S16x2048x1024, .f32⟩
  | .local _ .vmem, ⟨0, _⟩ => ⟨S1x256x1024, .f32⟩
  | .local _ .vmem, ⟨1, _⟩ => ⟨S1x256x1024, .f32⟩
  | .local _ .vmem, ⟨2, _⟩ => ⟨S1024x3072, .bf16⟩
  | .local _ .vmem, ⟨3, _⟩ => ⟨S3072, .f32⟩
  | .local _ .vmem, ⟨4, _⟩ => ⟨S1024x3, .f32⟩
  | .local _ .vmem, ⟨5, _⟩ => ⟨S1024x1024, .bf16⟩
  | .local _ .vmem, ⟨6, _⟩ => ⟨S1024, .f32⟩
  | .local _ .vmem, ⟨7, _⟩ => ⟨S1x256x1024, .f32⟩
  | .local _ .vmem, ⟨8, _⟩ => ⟨S1x256x1024, .f32⟩
  | .local _ .vmem, ⟨9, _⟩ => ⟨S2x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  transposes_S3072x1024_S1024x3072_1_0 : S3072x1024.Transposes [1, 0] S1024x3072
  bitsLt_bf16_f32 : FTy.bits .bf16 < FTy.bits .f32
  transposes_S1024x1024_S1024x1024_1_0 : S1024x1024.Transposes [1, 0] S1024x1024
  inb_S2x1024_S2x1024_0_0 : ∀ a, (![0, 0] : Fin 2 → Nat) a + S2x1024.size a ≤ S2x1024.size a
  h_S2x1024 : 0 < S2x1024.numel
  shapeCasts_S2x1024_S2x1024 : S2x1024.ShapeCasts S2x1024
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S3072_S3072_0 : ∀ a, (![0] : Fin 1 → Nat) a + S3072.size a ≤ S3072.size a
  h_S3072 : 0 < S3072.numel
  shapeCasts_S3072_S1x3072 : S3072.ShapeCasts S1x3072
  broadcasts_S1x3072_S256x3072 : S1x3072.Broadcasts S256x3072
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  concatenates_S2x1024_S256x1024_S258x1024_d0 : Shape.Concatenates [S2x1024, S256x1024] S258x1024 0
  inb_S1024x3_S1024x1_0_0 : ∀ a, (![0, 0] : Fin 2 → Nat) a + S1024x1.size a ≤ S1024x3.size a
  h_S1024x1 : 0 < S1024x1.numel
  shapeCasts_S1024x1_S1024 : S1024x1.ShapeCasts S1024
  inb_S1024x3_S1024x1_0_1 : ∀ a, (![0, 1] : Fin 2 → Nat) a + S1024x1.size a ≤ S1024x3.size a
  inb_S1024x3_S1024x1_0_2 : ∀ a, (![0, 2] : Fin 2 → Nat) a + S1024x1.size a ≤ S1024x3.size a
  slices_S258x1024_o0_0_S256x1024 : S258x1024.Slices ![0, 0] S256x1024
  shapeCasts_S1024_S1x1024 : S1024.ShapeCasts S1x1024
  broadcasts_S1x1024_S256x1024 : S1x1024.Broadcasts S256x1024
  slices_S258x1024_o1_0_S256x1024 : S258x1024.Slices ![1, 0] S256x1024
  slices_S258x1024_o2_0_S256x1024 : S258x1024.Slices ![2, 0] S256x1024
  slices_S256x1024_o254_0_S2x1024 : S256x1024.Slices ![254, 0] S2x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S256x1024_S1x256x1024 : S256x1024.ShapeCasts S1x256x1024
  dot_S256x1024_S1024x3072_S256x3072_1_0_0_1_n_n_wf : DotDims.WF S256x1024 S1024x3072 S256x3072 [1] [0] [0] [1] [] []
  dot_S256x1024_S1024x1024_S256x1024_1_0_0_1_n_n_wf : DotDims.WF S256x1024 S1024x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S16x2048x1024.size a
  hwx0_0 : ∀ i : grid0.Coords, EltTy.bits .f32 = 32 ∨ (Rect.block (s := S16x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3072.size a ≤ S3072.size a
  hwx0_2 : ∀ i : grid0.Coords, EltTy.bits .f32 = 32 ∨ (Rect.block (s := S3072) S3072.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x3.size a ≤ S1024x3.size a
  hwx0_3 : ∀ i : grid0.Coords, EltTy.bits .f32 = 32 ∨ (Rect.block (s := S1024x3) S1024x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024.size a ≤ S1024.size a
  hwx0_5 : ∀ i : grid0.Coords, EltTy.bits .f32 = 32 ∨ (Rect.block (s := S1024) S1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x1024.size a ≤ S16x2048x1024.size a
  hwx0_6 : ∀ i : grid0.Coords, EltTy.bits .f32 = 32 ∨ (Rect.block (s := S16x2048x1024) S1x256x1024.size (cc0_transform_6 i) (hinb0_6 i)).WholeWords (EltTy.packing .f32)

variable [Facts₀]

def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S3072.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x2048x1024 : Shape := ⟨3, ![16, 2048, 1024]⟩
abbrev S3072x1024 : Shape := ⟨2, ![3072, 1024]⟩
abbrev S3072 : Shape := ⟨1, ![3072]⟩
abbrev S1024x3 : Shape := ⟨2, ![1024, 3]⟩
abbrev S1024x1024 : Shape := ⟨2, ![1024, 1024]⟩
abbrev S1024 : Shape := ⟨1, ![1024]⟩
abbrev S16x2048x3072 : Shape := ⟨3, ![16, 2048, 3072]⟩
abbrev S1x1x3072 : Shape := ⟨3, ![1, 1, 3072]⟩
abbrev S_ : Shape := ⟨0, ![]⟩
abbrev S16x2050x1024 : Shape := ⟨3, ![16, 2050, 1024]⟩
abbrev S1024x1 : Shape := ⟨2, ![1024, 1]⟩
abbrev S1x1x1024 : Shape := ⟨3, ![1, 1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S3072x1024, .f32⟩
  | .hbm, ⟨2, _⟩ => ⟨S3072, .f32⟩
  | .hbm, ⟨3, _⟩ => ⟨S1024x3, .f32⟩
  | .hbm, ⟨4, _⟩ => ⟨S1024x1024, .f32⟩
  | .hbm, ⟨5, _⟩ => ⟨S1024, .f32⟩
  | .hbm, ⟨6, _⟩ => ⟨S16x2048x3072, .f32⟩
  | .hbm, ⟨7, _⟩ => ⟨S1x1x3072, .f32⟩
  | .hbm, ⟨8, _⟩ => ⟨S16x2048x3072, .f32⟩
  | .hbm, ⟨9, _⟩ => ⟨S16x2048x3072, .f32⟩
  | .hbm, ⟨10, _⟩ => ⟨S16x2048x1024, .f32⟩
  | .hbm, ⟨11, _⟩ => ⟨S16x2048x1024, .f32⟩
  | .hbm, ⟨12, _⟩ => ⟨S16x2048x1024, .f32⟩
  | .hbm, ⟨13, _⟩ => ⟨S16x2048x1024, .f32⟩
  | .hbm, ⟨14, _⟩ => ⟨S_, .i32⟩
  | .hbm, ⟨15, _⟩ => ⟨S_, .f32⟩
  | .hbm, ⟨16, _⟩ => ⟨S16x2050x1024, .f32⟩
  | .hbm, ⟨17, _⟩ => ⟨S1024x1, .f32⟩
  | .hbm, ⟨18, _⟩ => ⟨S1024, .f32⟩
  | .hbm, ⟨19, _⟩ => ⟨S16x2048x1024, .f32⟩
  | .hbm, ⟨20, _⟩ => ⟨S1x1x1024, .f32⟩
  | .hbm, ⟨21, _⟩ => ⟨S16x2048x1024, .f32⟩
  | .hbm, ⟨22, _⟩ => ⟨S16x2048x1024, .f32⟩
  | .hbm, ⟨23, _⟩ => ⟨S1024x1, .f32⟩
  | .hbm, ⟨24, _⟩ => ⟨S1024, .f32⟩
  | .hbm, ⟨25, _⟩ => ⟨S16x2048x1024, .f32⟩
  | .hbm, ⟨26, _⟩ => ⟨S1x1x1024, .f32⟩
  | .hbm, ⟨27, _⟩ => ⟨S16x2048x1024, .f32⟩
  | .hbm, ⟨28, _⟩ => ⟨S16x2048x1024, .f32⟩
  | .hbm, ⟨29, _⟩ => ⟨S16x2048x1024, .f32⟩
  | .hbm, ⟨30, _⟩ => ⟨S1024x1, .f32⟩
  | .hbm, ⟨31, _⟩ => ⟨S1024, .f32⟩
  | .hbm, ⟨32, _⟩ => ⟨S16x2048x1024, .f32⟩
  | .hbm, ⟨33, _⟩ => ⟨S1x1x1024, .f32⟩
  | .hbm, ⟨34, _⟩ => ⟨S16x2048x1024, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | .hbm, ⟨38, _⟩ => ⟨S16x2048x1024, .f32⟩
  | .hbm, ⟨39, _⟩ => ⟨S1x1x1024, .f32⟩
  | .hbm, ⟨40, _⟩ => ⟨S16x2048x1024, .f32⟩
  | .hbm, ⟨41, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]

class Facts₀ : Prop where
  bcast_S3072_S1x1x3072_2 : S3072.BroadcastsInDim S1x1x3072 (![2] : Fin 1 → Fin S1x1x3072.rank)
  bcast_S1x1x3072_S16x2048x3072_0_1_2 : S1x1x3072.BroadcastsInDim S16x2048x3072 (![0, 1, 2] : Fin 3 → Fin S16x2048x3072.rank)
  slices_S16x2048x3072_S16x2048x1024_0_0_0 : S16x2048x3072.Slices ![0, 0, 0] S16x2048x1024
  slices_S16x2048x3072_S16x2048x1024_0_0_1024 : S16x2048x3072.Slices ![0, 0, 1024] S16x2048x1024
  slices_S16x2048x3072_S16x2048x1024_0_0_2048 : S16x2048x3072.Slices ![0, 0, 2048] S16x2048x1024
  pads_S16x2048x1024_S16x2050x1024_000_200_000 : S16x2048x1024.Pads (![0, 2, 0] : Fin 3 → Nat) ![0, 0, 0] ![0, 0, 0] S16x2050x1024
  h_S_ : 0 < S_.numel
  slices_S1024x3_S1024x1_0_0 : S1024x3.Slices ![0, 0] S1024x1
  shapeCasts_S1024x1_S1024 : S1024x1.ShapeCasts S1024
  slices_S16x2050x1024_S16x2048x1024_0_0_0 : S16x2050x1024.Slices ![0, 0, 0] S16x2048x1024
  bcast_S1024_S1x1x1024_2 : S1024.BroadcastsInDim S1x1x1024 (![2] : Fin 1 → Fin S1x1x1024.rank)
  bcast_S1x1x1024_S16x2048x1024_0_1_2 : S1x1x1024.BroadcastsInDim S16x2048x1024 (![0, 1, 2] : Fin 3 → Fin S16x2048x1024.rank)
  slices_S1024x3_S1024x1_0_1 : S1024x3.Slices ![0, 1] S1024x1
  slices_S16x2050x1024_S16x2048x1024_0_1_0 : S16x2050x1024.Slices ![0, 1, 0] S16x2048x1024
  slices_S1024x3_S1024x1_0_2 : S1024x3.Slices ![0, 2] S1024x1
  slices_S16x2050x1024_S16x2048x1024_0_2_0 : S16x2050x1024.Slices ![0, 2, 0] S16x2048x1024
  dot_S16x2048x1024_S3072x1024_S16x2048x3072_2_1_01_0_n_n_wf : DotDims.WF S16x2048x1024 S3072x1024 S16x2048x3072 [2] [1] [0, 1] [0] [] []
  dot_S16x2048x1024_S1024x1024_S16x2048x1024_2_1_01_0_n_n_wf : DotDims.WF S16x2048x1024 S1024x1024 S16x2048x1024 [2] [1] [0, 1] [0] [] []

variable [Facts₀]

def dot_S16x2048x1024_S3072x1024_S16x2048x3072_2_1_01_0_n_n : DotDims S16x2048x1024 S3072x1024 S16x2048x3072 where
  lhsContracting := [2]
  rhsContracting := [1]
  lhsNonContracting := [0, 1]
  rhsNonContracting := [0]
  lhsBatch := []
  rhsBatch := []
  wf := dot_S16x2048x1024_S3072x1024_S16x2048x3072_2_1_01_0_n_n_wf
def dot_S16x2048x1024_S1024x1024_S16x2048x1024_2_1_01_0_n_n : DotDims S16x2048x1024 S1024x1024 S16x2048x1024 where
  lhsContracting := [2]
  rhsContracting := [1]
  lhsNonContracting := [0, 1]
  rhsNonContracting := [0]
  lhsBatch := []
  rhsBatch := []
  wf := dot_S16x2048x1024_S1024x1024_S16x2048x1024_2_1_01_0_n_n_wf

class Facts : Prop extends Facts₀ where

variable [Facts]
-- ==== Proof.CasePieces.lean ====
/-
  What one run of the kernel body leaves behind, as plain values of the blocks it was given.

  The body runs in one of two ways.  At the first tile of a sequence (A) it first clears the two carried rows; at any
  later tile (B) it finds in them what the tile before left.  Either way it ends by storing

    * into the carried rows, the last two rows of this tile's gate product — the whole two-row buffer, so what the
      buffer held before does not matter;
    * into the output tile, the out-projection of the gated taps, the taps reading the carried rows as the two rows
      that precede the tile: the cleared rows in A, the previous tile's in B.

  The three tap weights are read as the three columns of the weight block.
-/
import proofs.«166053_j68470368633596_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem zeros1 : (![0] : Fin 1 → Nat) = fun _ => 0 := funext fun a => by fin_cases a <;> rfl
theorem zeros2 : (![0, 0] : Fin 2 → Nat) = fun _ => 0 := funext fun a => by fin_cases a <;> rfl
theorem zeros3 : (![0, 0, 0] : Fin 3 → Nat) = fun _ => 0 := funext fun a => by fin_cases a <;> rfl

/-- Column s of the tap-weight block, as the body loads it: a 1024 × 1 slab. -/
abbrev wcol0 (x3 : Vec F S1024x3 .f32) : Vec F S1024x1 .f32 :=
  View.ld x3 (Rect.unit (s := S1024x3) ![0, 0] S1024x1.size inb_S1024x3_S1024x1_0_0)
abbrev wcol1 (x3 : Vec F S1024x3 .f32) : Vec F S1024x1 .f32 :=
  View.ld x3 (Rect.unit (s := S1024x3) ![0, 1] S1024x1.size inb_S1024x3_S1024x1_0_1)
abbrev wcol2 (x3 : Vec F S1024x3 .f32) : Vec F S1024x1 .f32 :=
  View.ld x3 (Rect.unit (s := S1024x3) ![0, 2] S1024x1.size inb_S1024x3_S1024x1_0_2)

/-- A later tile leaves in the carried rows the last two rows of its own gate product. -/
theorem carry_B (c : Dev nD) (i : grid0.Coords) (arg2 : Memref sig .tc .vmem S1x256x1024 .f32) (harg2 : arg2.IsWhole) (arg3 : Memref sig .tc .vmem S1024x3072 .bf16) (harg3 : arg3.IsWhole) (arg4 : Memref sig .tc .vmem S3072 .f32) (harg4 : arg4.IsWhole) (arg5 : Memref sig .tc .vmem S1024x3 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1x256x1024 .f32) (harg8 : arg8.IsWhole) (arg9 : Memref sig .tc .vmem S2x1024 .f32) (harg9 : arg9.IsWhole) (hc0 : ¬cond0_0 i)
    (x0 : Vec F S1x256x1024 .f32) (x1 : Vec F S1024x3072 .bf16) (x2 : Vec F S3072 .f32) (x3 : Vec F S1024x3 .f32) (x4 : Vec F S1024x1024 .bf16) (x5 : Vec F S1024 .f32) (xs0 : Vec F S2x1024 .f32) :
    sout0_B_0 c i arg2 harg2 arg3 harg3 arg4 harg4 arg5 harg5 arg6 harg6 arg7 harg7 arg8 harg8 arg9 harg9 hc0 x0 x1 x2 x3 x4 x5 xs0 = k0_pay1 (k0_pay5 x0 x1 x2) := by
  unfold sout0_B_0
  rw [View.read_writes_eq_canon _ _ _ (scover0_B_0 c i arg2 harg2 arg3 harg3 arg4 harg4 arg5 harg5 arg6 harg6 arg7 harg7 arg8 harg8 arg9 harg9 hc0 x0 x1 x2 x3 x4 x5 xs0)]
  unfold kernelRun0_B
  dsimp only
  sl_unfold_words
  rw [View.canon_unit_zero (S := S2x1024) zeros2]
  simp only [View.readAt_eq_ld, harg2.read_unread, harg3.read_unread, harg4.read_unread,
    View.ld_unit_zero (S := S1x256x1024) zeros3, View.ld_unit_zero (S := S1024x3072) zeros2, View.ld_unit_zero (S := S3072) zeros1]

/-- A later tile's output: the taps read the rows the tile before left. -/
theorem out_B (c : Dev nD) (i : grid0.Coords) (arg2 : Memref sig .tc .vmem S1x256x1024 .f32) (harg2 : arg2.IsWhole) (arg3 : Memref sig .tc .vmem S1024x3072 .bf16) (harg3 : arg3.IsWhole) (arg4 : Memref sig .tc .vmem S3072 .f32) (harg4 : arg4.IsWhole) (arg5 : Memref sig .tc .vmem S1024x3 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1x256x1024 .f32) (harg8 : arg8.IsWhole) (arg9 : Memref sig .tc .vmem S2x1024 .f32) (harg9 : arg9.IsWhole) (hc0 : ¬cond0_0 i)
    (x0 : Vec F S1x256x1024 .f32) (x1 : Vec F S1024x3072 .bf16) (x2 : Vec F S3072 .f32) (x3 : Vec F S1024x3 .f32) (x4 : Vec F S1024x1024 .bf16) (x5 : Vec F S1024 .f32) (xs0 : Vec F S2x1024 .f32) :
    out0_B_6 c i arg2 harg2 arg3 harg3 arg4 harg4 arg5 harg5 arg6 harg6 arg7 harg7 arg8 harg8 arg9 harg9 hc0 x0 x1 x2 x3 x4 x5 xs0 = k0_pay2 (k0_pay6 x0 x1 x2 xs0 (wcol0 x3) (wcol1 x3) (wcol2 x3)) x4 x5 := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 x5 xs0)]
  unfold kernelRun0_B
  dsimp only
  sl_unfold_words
  rw [View.canon_unit_zero (S := S1x256x1024) zeros3]
  simp only [View.readAt_eq_ld, harg2.read_unread, harg3.read_unread, harg4.read_unread, harg5.read_unread, harg6.read_unread,
    harg7.read_unread, harg9.read_unread,
    View.ld_unit_zero (S := S1x256x1024) zeros3, View.ld_unit_zero (S := S1024x3072) zeros2, View.ld_unit_zero (S := S3072) zeros1,
    View.ld_unit_zero (S := S2x1024) zeros2, View.ld_unit_zero (S := S1024x1024) zeros2, View.ld_unit_zero (S := S1024) zeros1]

/-- A first tile leaves in the carried rows the last two rows of its own gate product: the clearing store is overwritten. -/
theorem carry_A (c : Dev nD) (i : grid0.Coords) (arg2 : Memref sig .tc .vmem S1x256x1024 .f32) (harg2 : arg2.IsWhole) (arg3 : Memref sig .tc .vmem S1024x3072 .bf16) (harg3 : arg3.IsWhole) (arg4 : Memref sig .tc .vmem S3072 .f32) (harg4 : arg4.IsWhole) (arg5 : Memref sig .tc .vmem S1024x3 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1x256x1024 .f32) (harg8 : arg8.IsWhole) (arg9 : Memref sig .tc .vmem S2x1024 .f32) (harg9 : arg9.IsWhole) (hc0 : cond0_0 i)
    (x0 : Vec F S1x256x1024 .f32) (x1 : Vec F S1024x3072 .bf16) (x2 : Vec F S3072 .f32) (x3 : Vec F S1024x3 .f32) (x4 : Vec F S1024x1024 .bf16) (x5 : Vec F S1024 .f32) :
    sout0_A_0 c i arg2 harg2 arg3 harg3 arg4 harg4 arg5 harg5 arg6 harg6 arg7 harg7 arg8 harg8 arg9 harg9 hc0 x0 x1 x2 x3 x4 x5 = k0_pay1 (k0_pay5 x0 x1 x2) := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_cons_unit_zero (S := S2x1024) zeros2]
  simp only [View.readAt_eq_ld, harg2.read_unread, harg3.read_unread, harg4.read_unread,
    View.ld_unit_zero (S := S1x256x1024) zeros3, View.ld_unit_zero (S := S1024x3072) zeros2, View.ld_unit_zero (S := S3072) zeros1]

/-- A first tile's output: the taps read the rows just cleared. -/
theorem out_A (c : Dev nD) (i : grid0.Coords) (arg2 : Memref sig .tc .vmem S1x256x1024 .f32) (harg2 : arg2.IsWhole) (arg3 : Memref sig .tc .vmem S1024x3072 .bf16) (harg3 : arg3.IsWhole) (arg4 : Memref sig .tc .vmem S3072 .f32) (harg4 : arg4.IsWhole) (arg5 : Memref sig .tc .vmem S1024x3 .f32) (harg5 : arg5.IsWhole) (arg6 : Memref sig .tc .vmem S1024x1024 .bf16) (harg6 : arg6.IsWhole) (arg7 : Memref sig .tc .vmem S1024 .f32) (harg7 : arg7.IsWhole) (arg8 : Memref sig .tc .vmem S1x256x1024 .f32) (harg8 : arg8.IsWhole) (arg9 : Memref sig .tc .vmem S2x1024 .f32) (harg9 : arg9.IsWhole) (hc0 : cond0_0 i)
    (x0 : Vec F S1x256x1024 .f32) (x1 : Vec F S1024x3072 .bf16) (x2 : Vec F S3072 .f32) (x3 : Vec F S1024x3 .f32) (x4 : Vec F S1024x1024 .bf16) (x5 : Vec F S1024 .f32) :
    out0_A_6 c i arg2 harg2 arg3 harg3 arg4 harg4 arg5 harg5 arg6 harg6 arg7 harg7 arg8 harg8 arg9 harg9 hc0 x0 x1 x2 x3 x4 x5 = k0_pay2 (k0_pay6 x0 x1 x2 (k0_pay3 (F := F)) (wcol0 x3) (wcol1 x3) (wcol2 x3)) x4 x5 := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_unit_zero (S := S1x256x1024) zeros3]
  simp only [View.readAt_eq_ld, harg2.read_unread, harg3.read_unread, harg4.read_unread, harg5.read_unread, harg6.read_unread,
    harg7.read_unread, View.readCov_unit_zero (S := S2x1024) _ zeros2,
    View.ld_unit_zero (S := S1x256x1024) zeros3, View.ld_unit_zero (S := S1024x3072) zeros2, View.ld_unit_zero (S := S3072) zeros1,
    View.ld_unit_zero (S := S2x1024) zeros2, View.ld_unit_zero (S := S1024x1024) zeros2, View.ld_unit_zero (S := S1024) zeros1]

end Cert.KernelIdeal.Pieces

end
-- ==== Proof.LibMatmulPlain.lean ====
/-
  A matrix product with no batch axis, rows × contraction by contraction × columns, read at one entry on the extended
  reals: into a zero accumulator it is the plain sum over the contraction coordinate of the products of the two
  operands' entries.  Stated once for any extents and any dimension-number record of that pattern, for the vector
  unit's product and for the host's.
-/
import Idealize.ShloMosaic.Lib.ValueIdx
import Idealize.ShloMosaic.PureOps.Ideal.Laws

noncomputable section

namespace Cert.Gcn

open Idealize.ShloMosaic Idealize.ShloMosaic.ValueIdx

variable {M K N : ℕ}

/-- The dimension numbers contract the left operand's columns with the right operand's rows and keep the left rows
    and the right columns, with no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

/-- The sum over the one-axis contraction index is the sum over its coordinate, the left operand read at
    (row, l) and the right at (l, column). -/
theorem plain_sum {φ₁ φ₂ : FTy} (D : DotDims ⟨2, ![M, K]⟩ ⟨2, ![K, N]⟩ ⟨2, ![M, N]⟩) (hD : IsPlain D)
    (A : FVec Ideal ⟨2, ![M, K]⟩ φ₁) (B : FVec Ideal ⟨2, ![K, N]⟩ φ₂) (p : Fin M) (q : Fin N) :
    ∑ k : D.contr.Idx, A (D.lhsIdx (ix2 p q) k) * B (D.rhsIdx (ix2 p q) k) = ∑ l : Fin K, A (ix2 p l) * B (ix2 l q) := by
  obtain ⟨lc, rc, ln, rn, lb, rb, wf⟩ := D
  obtain ⟨h1, h2, h3, h4, h5, h6⟩ := hD
  simp only at h1 h2 h3 h4 h5 h6
  subst h1 h2 h3 h4 h5 h6
  set D : DotDims ⟨2, ![M, K]⟩ ⟨2, ![K, N]⟩ ⟨2, ![M, N]⟩ := ⟨[1], [0], [0], [1], [], [], wf⟩ with hDdef
  rw [← Equiv.sum_comp (contrEquiv1 D K rfl rfl).symm]
  refine Finset.sum_congr rfl fun l _ => ?_
  have hk := contrEquiv1_symm_val D K rfl rfl l
  have l0 : ∀ (i : (⟨2, ![M, N]⟩ : Shape).Idx) (k : D.contr.Idx), (D.lhsIdx i k 0).val = (i 0).val := by
    intro i k
    unfold DotDims.lhsIdx
    rw [dif_neg (show ¬(0 : Fin 2) ∈ ([] : List (Fin 2)) by decide), dif_pos (show (0 : Fin 2) ∈ ([0] : List (Fin 2)) by decide)]
    rfl
  have l1 : ∀ (i : (⟨2, ![M, N]⟩ : Shape).Idx) (k : D.contr.Idx), (D.lhsIdx i k 1).val = (k ⟨0, Nat.one_pos⟩).val :=
    fun i k => D.lhsIdx_val_of_single rfl i k
  have r0 : ∀ (i : (⟨2, ![M, N]⟩ : Shape).Idx) (k : D.contr.Idx), (D.rhsIdx i k 0).val = (k ⟨0, Nat.one_pos⟩).val :=
    fun i k => D.rhsIdx_val_of_single rfl i k
  have r1 : ∀ (i : (⟨2, ![M, N]⟩ : Shape).Idx) (k : D.contr.Idx), (D.rhsIdx i k 1).val = (i 1).val := by
    intro i k
    unfold DotDims.rhsIdx
    rw [dif_neg (show ¬(1 : Fin 2) ∈ ([] : List (Fin 2)) by decide), dif_pos (show (1 : Fin 2) ∈ ([1] : List (Fin 2)) by decide)]
    rfl
  have el : D.lhsIdx (ix2 p q) ((contrEquiv1 D K rfl rfl).symm l) = ix2 p l := funext fun a => Fin.ext (by
    match a with
    | ⟨0, _⟩ => exact l0 _ _
    | ⟨1, _⟩ => exact (l1 _ _).trans hk)
  have er : D.rhsIdx (ix2 p q) ((contrEquiv1 D K rfl rfl).symm l) = ix2 l q := funext fun a => Fin.ext (by
    match a with
    | ⟨0, _⟩ => exact (r0 _ _).trans hk
    | ⟨1, _⟩ => exact r1 _ _)
  rw [el, er]

/-- The vector unit's product into the zero accumulator, at entry (p, q). -/
theorem matmul_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    matmul D prec A B (constant (F := Ideal) ⟨2, ![M, N]⟩ .f32 0x00000000#32) (ix2 p q) = ∑ l : Fin K, A (ix2 p l) * B (ix2 l q) := by
  simp only [matmul]
  rw [Ideal.matmul_constant_zero_apply]
  exact plain_sum D hD A B p q

/-- The host's product, at entry (p, q). -/
theorem dotGeneral_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    Host.dotGeneral D prec A B (ix2 p q) = ∑ l : Fin K, A (ix2 p l) * B (ix2 l q) := by
  simp only [Host.dotGeneral]
  rw [Ideal.dotGeneral_apply]
  exact plain_sum D hD A B p q

end Cert.Gcn

end
-- ==== Proof.TileMath.lean ====
/-
  One tile of the computation, entry by entry on the extended reals.

  A tile is 256 consecutive time steps of one sequence.  From the tile's rows of x (a 1 × 256 × 1024 block), the
  transposed in-projection weights (1024 × 3072: entry (d, e) is Win(e, d)) and the bias, the body forms

      P(r, e) = (Σ_d x(0, r, d) · Wt(d, e)) + bin(e)              the in-projection of row r
      B(r, d) = P(r, d) · P(r, 2048 + d)                          the gate product

  A change of float format is the identity on the extended reals, and a matrix product into the zero accumulator is
  the plain sum over the contracted coordinate.
-/
import proofs.«166053_j68470368633596_1_alg».proof.Proof.Gen.KernelIdeal.Skeleton
import proofs.«166053_j68470368633596_1_alg».proof.Proof.LibMatmulPlain
import Idealize.ShloMosaic.Lib.Pipeline.Value
import Idealize.ShloMosaic.Lib.ValueLayout
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.ValueIdx

namespace Cert.KernelIdeal.Tile

open Cert.KernelIdeal Cert.KernelIdeal.Gen

/-- A column vector [a, 1] cast to [a] reads, at i, the operand at (i, 0). -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The in-projection of row r of the tile, at channel e. -/
theorem inProj_tile (v3 : Vec Ideal S1x256x1024 .f32) (v6 : Vec Ideal S1024x3072 .bf16) (v9 : Vec Ideal S3072 .f32)
    (r : Fin 256) (e : Fin 3072) :
    k0_pay4 v3 v6 v9 (ix2 r e) = (∑ d : Fin 1024, v3 (ix3 (0 : Fin 1) r d) * v6 (ix2 d e)) + v9 (ix1 e) := by
  unfold k0_pay4
  rw [ValueIdx.addf_apply]
  refine congrArg₂ (· + ·) ?_ ?_
  · refine (Cert.Gcn.matmul_plain_apply _ ⟨rfl, rfl, rfl, rfl, rfl, rfl⟩ none _ _ r e).trans ?_
    refine Finset.sum_congr rfl fun d _ => ?_
    refine congrArg₂ (· * ·) ?_ ?_
    · exact shapeCast_1ab_ab_apply _ _ r d
    · exact congrFun (shapeCast_self _ _) _
  · exact (broadcastTo_1b_ab_apply _ _ r e).trans (shapeCast_a_1a_apply _ _ 0 e)

/-- The gate product of row r at channel d: the first third of the in-projection's channels times the third third. -/
theorem gateProd_tile (v3 : Vec Ideal S1x256x1024 .f32) (v6 : Vec Ideal S1024x3072 .bf16) (v9 : Vec Ideal S3072 .f32)
    (r : Fin 256) (d : Fin 1024) :
    k0_pay5 v3 v6 v9 (ix2 r d)
      = k0_pay4 v3 v6 v9 (ix2 r (⟨d.val, by omega⟩ : Fin 3072)) * k0_pay4 v3 v6 v9 (ix2 r (⟨2048 + d.val, by omega⟩ : Fin 3072)) := by
  unfold k0_pay5
  rw [ValueIdx.mulf_apply]
  refine congrArg₂ (· * ·) ?_ ?_
  · exact extractStridedSlice_apply _ _ _ _ _ fun a => match a with
      | ⟨0, _⟩ => (Nat.zero_add _).symm
      | ⟨1, _⟩ => (Nat.zero_add _).symm
  · exact extractStridedSlice_apply _ _ _ _ _ fun a => match a with
      | ⟨0, _⟩ => (Nat.zero_add _).symm
      | ⟨1, _⟩ => rfl

/-- The rows a tile hands on to the next: rows 254 and 255 of its gate product. -/
theorem carry_tile (v16 : FVec Ideal S256x1024 .f32) (j : Fin 2) (d : Fin 1024) :
    k0_pay1 v16 (ix2 j d) = v16 (ix2 (⟨254 + j.val, by omega⟩ : Fin 256) d) := by
  unfold k0_pay1
  rw [shapeCast_self]
  exact extractStridedSlice_apply _ _ _ _ _ fun a => match a with
    | ⟨0, _⟩ => rfl
    | ⟨1, _⟩ => (Nat.zero_add _).symm

/-- The rows a sequence's first tile starts from: zeros. -/
theorem zero_tile (y : S2x1024.Idx) : k0_pay3 (F := Ideal) y = 0 := by
  unfold k0_pay3
  rw [shapeCast_self]
  exact Ideal.ofBits_zero_f32

/-- The out-projection of the gated rows: against the transposed weights (entry (d, e) is Wout(e, d)), plus the bias. -/
theorem outProj_tile (v39 : FVec Ideal S256x1024 .f32) (v45 : Vec Ideal S1024x1024 .bf16) (v48 : Vec Ideal S1024 .f32)
    (u : Fin 1) (r : Fin 256) (e : Fin 1024) :
    k0_pay2 v39 v45 v48 (ix3 u r e) = (∑ d : Fin 1024, v39 (ix2 r d) * v45 (ix2 d e)) + v48 (ix1 e) := by
  unfold k0_pay2
  refine (shapeCast_ab_1ab_apply _ _ u r e).trans ?_
  rw [ValueIdx.addf_apply]
  refine congrArg₂ (· + ·) ?_ ?_
  · refine (Cert.Gcn.matmul_plain_apply _ ⟨rfl, rfl, rfl, rfl, rfl, rfl⟩ none _ _ r e).trans ?_
    refine Finset.sum_congr rfl fun d _ => ?_
    exact congrArg₂ (· * ·) rfl (congrFun (shapeCast_self _ _) _)
  · exact (broadcastTo_1b_ab_apply _ _ r e).trans (shapeCast_a_1a_apply _ _ 0 e)

/-! ## The taps

  The body puts the two carried rows before the tile's gate product (258 rows) and reads that buffer at r, r + 1 and
  r + 2 for row r: the gate product two rows back, one row back, and at r itself.  Each tap is weighted by its column
  of the weight block, read per channel, and the three are added left to right; the middle third of the in-projection's
  channels gates the sum. -/

/-- The carried rows followed by the tile's gate product, at position n of the 258 and channel d. -/
def tileBuf (carry : Vec Ideal S2x1024 .f32) (bx : FVec Ideal S256x1024 .f32) (d : Fin 1024) (n : ℕ) : EReal :=
  if h : n < 2 then carry (ix2 (⟨n, h⟩ : Fin 2) d)
  else if h' : n - 2 < 256 then bx (ix2 (⟨n - 2, h'⟩ : Fin 256) d) else 0

theorem concat_tile (carry : Vec Ideal S2x1024 .f32) (bx : FVec Ideal S256x1024 .f32)
    (hc : Shape.Concatenates [S2x1024, S256x1024] S258x1024 0) (n : Fin 258) (d : Fin 1024) :
    concatenate S258x1024 0 [⟨S2x1024, carry⟩, ⟨S256x1024, bx⟩] hc (ix2 n d) = tileBuf carry bx d n.val := by
  unfold tileBuf
  by_cases h : n.val < 2
  · rw [dif_pos h]
    exact concatenate_pair_apply_left 0 carry bx hc (ix2 n d) rfl (ix2 (⟨n.val, h⟩ : Fin 2) d) fun b => match b with
      | ⟨0, _⟩ => rfl
      | ⟨1, _⟩ => rfl
  · have h' : n.val - 2 < 256 := by have := n.isLt; omega
    rw [dif_neg h, dif_pos h']
    exact concatenate_pair_apply_right 0 carry bx hc (ix2 n d) rfl rfl (ix2 (⟨n.val - 2, h'⟩ : Fin 256) d)
      (fun b => match b with
        | ⟨0, _⟩ => fun hb => absurd rfl hb
        | ⟨1, _⟩ => fun _ => rfl)
      (by show n.val - 2 + 2 = n.val; omega)

/-- The buffer read s rows on from row r. -/
theorem tap_tile (carry : Vec Ideal S2x1024 .f32) (bx : FVec Ideal S256x1024 .f32)
    (hc : Shape.Concatenates [S2x1024, S256x1024] S258x1024 0) (s : ℕ) (hs : s ≤ 2)
    (hsl : S258x1024.Slices ![s, 0] S256x1024) (r : Fin 256) (d : Fin 1024) :
    extractStridedSlice S256x1024 ![s, 0] (concatenate S258x1024 0 [⟨S2x1024, carry⟩, ⟨S256x1024, bx⟩] hc) hsl (ix2 r d)
      = tileBuf carry bx d (r.val + s) :=
  (extractStridedSlice_apply _ _ hsl (ix2 r d) (ix2 (⟨r.val + s, by omega⟩ : Fin 258) d) fun a => match a with
      | ⟨0, _⟩ => Nat.add_comm _ _
      | ⟨1, _⟩ => (Nat.zero_add _).symm).trans (concat_tile carry bx hc _ d)

/-- One column of the weight block laid along every row of the tile: at (r, d) it is the column's entry d. -/
theorem weight_tile (v : Vec Ideal S1024x1 .f32) (h1 : S1024x1.ShapeCasts S1024) (h2 : S1024.ShapeCasts S1x1024)
    (h3 : S1x1024.Broadcasts S256x1024) (r : Fin 256) (d : Fin 1024) :
    broadcastTo S256x1024 (shapeCast S1x1024 (shapeCast S1024 v h1) h2) h3 (ix2 r d) = v (ix2 d (0 : Fin 1)) :=
  (broadcastTo_1b_ab_apply _ h3 r d).trans ((shapeCast_a_1a_apply _ h2 0 d).trans (shapeCast_a1_a_apply _ h1 d))

/-- The gated taps of row r at channel d. -/
theorem gated_tile (v3 : Vec Ideal S1x256x1024 .f32) (v6 : Vec Ideal S1024x3072 .bf16) (v9 : Vec Ideal S3072 .f32)
    (v17 : Vec Ideal S2x1024 .f32) (v19 v21 v23 : Vec Ideal S1024x1 .f32) (r : Fin 256) (d : Fin 1024) :
    k0_pay6 v3 v6 v9 v17 v19 v21 v23 (ix2 r d)
      = k0_pay4 v3 v6 v9 (ix2 r (⟨1024 + d.val, by omega⟩ : Fin 3072))
        * ((v19 (ix2 d (0 : Fin 1)) * tileBuf v17 (k0_pay5 v3 v6 v9) d (r.val + 0)
            + v21 (ix2 d (0 : Fin 1)) * tileBuf v17 (k0_pay5 v3 v6 v9) d (r.val + 1))
          + v23 (ix2 d (0 : Fin 1)) * tileBuf v17 (k0_pay5 v3 v6 v9) d (r.val + 2)) := by
  unfold k0_pay6
  rw [ValueIdx.mulf_apply]
  refine congrArg₂ (· * ·) ?_ ?_
  · exact extractStridedSlice_apply _ _ _ _ _ fun a => match a with
      | ⟨0, _⟩ => (Nat.zero_add _).symm
      | ⟨1, _⟩ => rfl
  · rw [ValueIdx.addf_apply, ValueIdx.addf_apply, ValueIdx.mulf_apply, ValueIdx.mulf_apply, ValueIdx.mulf_apply]
    refine congrArg₂ (· + ·) (congrArg₂ (· + ·) (congrArg₂ (· * ·) ?_ ?_) (congrArg₂ (· * ·) ?_ ?_)) (congrArg₂ (· * ·) ?_ ?_)
    · exact weight_tile v19 _ _ _ r d
    · exact tap_tile v17 (k0_pay5 v3 v6 v9) _ 0 (by omega) _ r d
    · exact weight_tile v21 _ _ _ r d
    · exact tap_tile v17 (k0_pay5 v3 v6 v9) _ 1 (by omega) _ r d
    · exact weight_tile v23 _ _ _ r d
    · exact tap_tile v17 (k0_pay5 v3 v6 v9) _ 2 (by omega) _ r d

end Cert.KernelIdeal.Tile

end
-- ==== Proof.BlockReads.lean ====
/-
  The blocks the body is handed at a grid point, as entries of the argument arrays.

  The grid is 16 × 8: point t is batch t / 8, tile t % 8 of that batch's sequence, and a tile is rows
  256·(t % 8) … 256·(t % 8) + 255.  Only x moves with the point; the weights and biases are whole at every point.
  The two projection weights reach the body transposed (their format change is the identity on the extended reals):
  entry (d, e) of the block is entry (e, d) of the argument.
-/
import proofs.«166053_j68470368633596_1_alg».proof.Proof.Gen.KernelIdeal.Frame
import proofs.«166053_j68470368633596_1_alg».proof.Proof.CasePieces
import Idealize.ShloMosaic.Lib.Pipeline.Value
import Idealize.ShloMosaic.Lib.ValueLayout
import Idealize.ShloMosaic.Lib.ValueIdx
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.ValueIdx

namespace Cert.KernelIdeal.Blocks

open Cert.KernelIdeal Cert.KernelIdeal.Gen

variable (m : (ℓ : Loc nD τ sig) → Buf (Elt Ideal) ℓ)

theorem point_lt (t : Fin cfg0.N) : t.val < 128 := lt_of_lt_of_eq t.isLt N_0

/-- The batch of point t. -/
abbrev batchOf (t : Fin cfg0.N) : Fin 16 := ⟨t.val / 8, by have := point_lt t; omega⟩
/-- Row r of point t's tile, as a time step of the sequence. -/
abbrev stepOf (t : Fin cfg0.N) (r : Fin 256) : Fin 2048 := ⟨256 * (t.val % 8) + r.val, by have := r.isLt; omega⟩

/-- The argument arrays, on core c. -/
abbrev xArr (c : Dev nD) : S16x2048x1024.Idx → EReal := m ((c : Thread nD τ).loc main_arg0)
abbrev winArr (c : Dev nD) : S3072x1024.Idx → EReal := m ((c : Thread nD τ).loc main_arg1)
abbrev binArr (c : Dev nD) : S3072.Idx → EReal := m ((c : Thread nD τ).loc main_arg2)
abbrev wArr (c : Dev nD) : S1024x3.Idx → EReal := m ((c : Thread nD τ).loc main_arg3)
abbrev woutArr (c : Dev nD) : S1024x1024.Idx → EReal := m ((c : Thread nD τ).loc main_arg4)
abbrev boutArr (c : Dev nD) : S1024.Idx → EReal := m ((c : Thread nD τ).loc main_arg5)

/-- The blocks at point t, at their literal types. -/
abbrev xBlk (c : Dev nD) (t : Fin cfg0.N) : Vec Ideal S1x256x1024 .f32 := iblk m c 0 t
abbrev winBlk (c : Dev nD) (t : Fin cfg0.N) : Vec Ideal S1024x3072 .bf16 := iblk m c 1 t
abbrev binBlk (c : Dev nD) (t : Fin cfg0.N) : Vec Ideal S3072 .f32 := iblk m c 2 t
abbrev wBlk (c : Dev nD) (t : Fin cfg0.N) : Vec Ideal S1024x3 .f32 := iblk m c 3 t
abbrev woutBlk (c : Dev nD) (t : Fin cfg0.N) : Vec Ideal S1024x1024 .bf16 := iblk m c 4 t
abbrev boutBlk (c : Dev nD) (t : Fin cfg0.N) : Vec Ideal S1024 .f32 := iblk m c 5 t

/-- The printed index maps, decided over the 128 points. -/
theorem idx_facts : ∀ t : Fin cfg0.N,
    win0_0.index t (0 : Fin 3) = t.val / 8 ∧ win0_0.index t (1 : Fin 3) = t.val % 8 ∧ win0_0.index t (2 : Fin 3) = 0
    ∧ win0_6.index t (0 : Fin 3) = t.val / 8 ∧ win0_6.index t (1 : Fin 3) = t.val % 8 ∧ win0_6.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0 :=
  (by decide +kernel : ∀ t : Fin grid0.N, _)

/-- The transposed, re-formatted in-projection weights the region finds. -/
theorem V_winT (c : Dev nD) :
    @Eq (S1024x3072.Idx → EReal) (V m c main_v1)
      (truncf (F := Ideal) .bf16 (transpose S1024x3072 [1, 0] (winArr m c) transposes_S3072x1024_S1024x3072_1_0) bitsLt_bf16_f32) := by
  dsimp only [Gen.V, Gen.hostOps0]; after_results

/-- The transposed, re-formatted out-projection weights the region finds. -/
theorem V_woutT (c : Dev nD) :
    @Eq (S1024x1024.Idx → EReal) (V m c main_v3)
      (truncf (F := Ideal) .bf16 (transpose S1024x1024 [1, 0] (woutArr m c) transposes_S1024x1024_S1024x1024_1_0) bitsLt_bf16_f32) := by
  dsimp only [Gen.V, Gen.hostOps0]; after_results

/-- Point t's block of x is rows 256·(t % 8) + r of batch t / 8. -/
theorem x_blk (c : Dev nD) (t : Fin cfg0.N) (u : Fin 1) (r : Fin 256) (d : Fin 1024) :
    xBlk m c t (ix3 u r d) = xArr m c (ix3 (batchOf t) (stepOf t r) d) := by
  obtain ⟨e0, e1, e2, -⟩ := idx_facts t
  show V m c main_arg0 (((cfg0.win 0).blk t).view.emb (ix3 u r d)) = _
  rw [V_main_arg0]
  refine congrArg _ (funext fun a => Fin.ext ?_)
  match a with
  | ⟨0, _⟩ => show win0_0.index t (0 : Fin 3) * 1 + 1 * u.val = t.val / 8; omega
  | ⟨1, _⟩ => show win0_0.index t (1 : Fin 3) * 256 + 1 * r.val = 256 * (t.val % 8) + r.val; omega
  | ⟨2, _⟩ => show win0_0.index t (2 : Fin 3) * 1024 + 1 * d.val = d.val; omega

/-- The in-projection weights' block: entry (d, e) is Win(e, d). -/
theorem win_blk (c : Dev nD) (t : Fin cfg0.N) (d : Fin 1024) (e : Fin 3072) :
    winBlk m c t (ix2 d e) = winArr m c (ix2 e d) := by
  obtain ⟨-, -, -, -, -, -, e0, e1, -⟩ := idx_facts t
  show (V m c main_v1 : S1024x3072.Idx → EReal) (((cfg0.win 1).blk t).view.emb (ix2 d e)) = _
  rw [V_winT]
  refine (congrArg _ (funext fun a => Fin.ext ?_)).trans (transpose_ix2_apply (winArr m c) transposes_S3072x1024_S1024x3072_1_0 d e)
  match a with
  | ⟨0, _⟩ => show win0_1.index t (0 : Fin 2) * 1024 + 1 * d.val = d.val; omega
  | ⟨1, _⟩ => show win0_1.index t (1 : Fin 2) * 3072 + 1 * e.val = e.val; omega

/-- The in-projection bias's block is the bias. -/
theorem bin_blk (c : Dev nD) (t : Fin cfg0.N) (e : Fin 3072) :
    binBlk m c t (ix1 e) = binArr m c (ix1 e) := by
  obtain ⟨-, -, -, -, -, -, -, -, e0, -⟩ := idx_facts t
  show V m c main_arg2 (((cfg0.win 2).blk t).view.emb (ix1 e)) = _
  rw [V_main_arg2]
  refine congrArg _ (funext fun a => Fin.ext ?_)
  match a with
  | ⟨0, _⟩ => show win0_2.index t (0 : Fin 1) * 3072 + 1 * e.val = e.val; omega

/-- The tap weights' block is the tap weights. -/
theorem w_blk (c : Dev nD) (t : Fin cfg0.N) (d : Fin 1024) (s : Fin 3) :
    wBlk m c t (ix2 d s) = wArr m c (ix2 d s) := by
  obtain ⟨-, -, -, -, -, -, -, -, -, e0, e1, -⟩ := idx_facts t
  show V m c main_arg3 (((cfg0.win 3).blk t).view.emb (ix2 d s)) = _
  rw [V_main_arg3]
  refine congrArg _ (funext fun a => Fin.ext ?_)
  match a with
  | ⟨0, _⟩ => show win0_3.index t (0 : Fin 2) * 1024 + 1 * d.val = d.val; omega
  | ⟨1, _⟩ => show win0_3.index t (1 : Fin 2) * 3 + 1 * s.val = s.val; omega

/-- The out-projection weights' block: entry (d, e) is Wout(e, d). -/
theorem wout_blk (c : Dev nD) (t : Fin cfg0.N) (d : Fin 1024) (e : Fin 1024) :
    woutBlk m c t (ix2 d e) = woutArr m c (ix2 e d) := by
  obtain ⟨-, -, -, -, -, -, -, -, -, -, -, e0, e1, -⟩ := idx_facts t
  show (V m c main_v3 : S1024x1024.Idx → EReal) (((cfg0.win 4).blk t).view.emb (ix2 d e)) = _
  rw [V_woutT]
  refine (congrArg _ (funext fun a => Fin.ext ?_)).trans (transpose_ix2_apply (woutArr m c) transposes_S1024x1024_S1024x1024_1_0 d e)
  match a with
  | ⟨0, _⟩ => show win0_4.index t (0 : Fin 2) * 1024 + 1 * d.val = d.val; omega
  | ⟨1, _⟩ => show win0_4.index t (1 : Fin 2) * 1024 + 1 * e.val = e.val; omega

/-- The out-projection bias's block is the bias. -/
theorem bout_blk (c : Dev nD) (t : Fin cfg0.N) (e : Fin 1024) :
    boutBlk m c t (ix1 e) = boutArr m c (ix1 e) := by
  obtain ⟨-, -, -, -, -, -, -, -, -, -, -, -, -, e0⟩ := idx_facts t
  show V m c main_arg5 (((cfg0.win 5).blk t).view.emb (ix1 e)) = _
  rw [V_main_arg5]
  refine congrArg _ (funext fun a => Fin.ext ?_)
  match a with
  | ⟨0, _⟩ => show win0_5.index t (0 : Fin 1) * 1024 + 1 * e.val = e.val; omega

/-- Column s of the tap-weight block, as the body loads it, at channel d. -/
theorem wcol0_apply (x3 : Vec Ideal S1024x3 .f32) (d : Fin 1024) :
    Pieces.wcol0 x3 (ix2 d (0 : Fin 1)) = x3 (ix2 d (0 : Fin 3)) := by
  refine congrArg x3 (funext fun a => Fin.ext ?_)
  match a with
  | ⟨0, _⟩ => show 0 + 1 * d.val = d.val; omega
  | ⟨1, _⟩ => show 0 + 1 * 0 = 0; rfl
theorem wcol1_apply (x3 : Vec Ideal S1024x3 .f32) (d : Fin 1024) :
    Pieces.wcol1 x3 (ix2 d (0 : Fin 1)) = x3 (ix2 d (1 : Fin 3)) := by
  refine congrArg x3 (funext fun a => Fin.ext ?_)
  match a with
  | ⟨0, _⟩ => show 0 + 1 * d.val = d.val; omega
  | ⟨1, _⟩ => show 1 + 1 * 0 = 1; rfl
theorem wcol2_apply (x3 : Vec Ideal S1024x3 .f32) (d : Fin 1024) :
    Pieces.wcol2 x3 (ix2 d (0 : Fin 1)) = x3 (ix2 d (2 : Fin 3)) := by
  refine congrArg x3 (funext fun a => Fin.ext ?_)
  match a with
  | ⟨0, _⟩ => show 0 + 1 * d.val = d.val; omega
  | ⟨1, _⟩ => show 2 + 1 * 0 = 2; rfl

end Cert.KernelIdeal.Blocks

end
-- ==== Proof.ConvSpec.lean ====
/-
  The gated causal depthwise convolution between two projections, as ONE function of the six argument arrays,
  entry by entry on the extended reals.  For a batch b, a time step l and a channel:

    in-projection    P(b,l,e) = (Σ_d x(b,l,d) · Win(e,d)) + bin(e)                      e < 3072
    gate product     B(b,l,d) = P(b,l,d) · P(b,l,2048+d)                                 d < 1024
    causal taps      C(b,l,d) = (w(d,0) · B̂(l) + w(d,1) · B̂(l+1)) + w(d,2) · B̂(l+2)
                     where B̂ is the sequence B(b,·,d) with two zero rows put before its start
    gated            Y(b,l,d) = P(b,l,1024+d) · C(b,l,d)
    out-projection   O(b,l,e) = (Σ_d Y(b,l,d) · Wout(e,d)) + bout(e)                     e < 1024

  Both programs compute O; they differ in how the time axis is cut into pieces and in the order of the sums,
  neither of which this function sees.
-/
import Idealize.ShloMosaic.Lib.ValueIdx
import Idealize.ShloMosaic.PureOps.Ideal

noncomputable section

namespace Cert.ShortConv

open Idealize.ShloMosaic Idealize.ShloMosaic.ValueIdx

/-- A sequence of 2048 rows with two zero rows put before its start, read at position n of the 2050. -/
def padded (f : Fin 2048 → EReal) (n : ℕ) : EReal :=
  if h : 2 ≤ n ∧ n < 2050 then f ⟨n - 2, by omega⟩ else 0

theorem padded_lt (f : Fin 2048 → EReal) (n : ℕ) (h : n < 2) : padded f n = 0 := by
  unfold padded
  rw [dif_neg (by omega)]

theorem padded_ge (f : Fin 2048 → EReal) (n : ℕ) (h2 : 2 ≤ n) (h : n < 2050) (k : Fin 2048) (hk : k.val + 2 = n) :
    padded f n = f k := by
  unfold padded
  rw [dif_pos ⟨h2, h⟩]
  exact congrArg f (Fin.ext (by show n - 2 = k.val; omega))

variable (x : (⟨3, ![16, 2048, 1024]⟩ : Shape).Idx → EReal) (Win : (⟨2, ![3072, 1024]⟩ : Shape).Idx → EReal)
  (bin : (⟨1, ![3072]⟩ : Shape).Idx → EReal) (w : (⟨2, ![1024, 3]⟩ : Shape).Idx → EReal)
  (Wout : (⟨2, ![1024, 1024]⟩ : Shape).Idx → EReal) (bout : (⟨1, ![1024]⟩ : Shape).Idx → EReal)

/-- The in-projection: row (b, l) of x against row e of Win, plus the bias. -/
def inProj (b : Fin 16) (l : Fin 2048) (e : Fin 3072) : EReal :=
  (∑ d : Fin 1024, x (ix3 b l d) * Win (ix2 e d)) + bin (ix1 e)

/-- The product of the first and the third thirds of the in-projection's channels. -/
def gateProd (b : Fin 16) (l : Fin 2048) (d : Fin 1024) : EReal :=
  inProj x Win bin b l ⟨d.val, by omega⟩ * inProj x Win bin b l ⟨2048 + d.val, by omega⟩

/-- The three causal taps of channel d at time l: the gate product at l - 2, l - 1 and l, zero before the start. -/
def taps (b : Fin 16) (l : Fin 2048) (d : Fin 1024) : EReal :=
  (w (ix2 d 0) * padded (fun l' => gateProd x Win bin b l' d) l.val
    + w (ix2 d 1) * padded (fun l' => gateProd x Win bin b l' d) (l.val + 1))
    + w (ix2 d 2) * padded (fun l' => gateProd x Win bin b l' d) (l.val + 2)

/-- The taps gated by the middle third of the in-projection's channels. -/
def gated (b : Fin 16) (l : Fin 2048) (d : Fin 1024) : EReal :=
  inProj x Win bin b l ⟨1024 + d.val, by omega⟩ * taps x Win bin w b l d

/-- The out-projection: the gated row against row e of Wout, plus the bias. -/
def outProj (b : Fin 16) (l : Fin 2048) (e : Fin 1024) : EReal :=
  (∑ d : Fin 1024, gated x Win bin w b l d * Wout (ix2 e d)) + bout (ix1 e)

/-- The whole result array. -/
def result : (⟨3, ![16, 2048, 1024]⟩ : Shape).Idx → EReal :=
  fun i => outProj x Win bin w Wout bout (i 0) (i 1) (i 2)

theorem result_ix3 (b : Fin 16) (l : Fin 2048) (e : Fin 1024) :
    result x Win bin w Wout bout (ix3 b l e) = outProj x Win bin w Wout bout b l e := rfl

end Cert.ShortConv

end
-- ==== Proof.PointValue.lean ====
/-
  One grid point, read as the specification.

  Point t works on batch b = t / 8 and on time steps 256·(t % 8) + r, r < 256.  Its in-projection, gate product
  and out-projection are the specification's at those coordinates, because its blocks are the argument arrays there.
  What needs an argument is the two rows before the tile.  The body reads them from the carried buffer:

    * at a sequence's first tile (t % 8 = 0) the buffer was just cleared, and the specification's padded sequence is
      zero at positions 0 and 1;
    * at a later tile the buffer holds what point t - 1 left, the last two rows of ITS gate product: same batch,
      time steps 256·(t % 8) - 2 and 256·(t % 8) - 1, which are positions 256·(t % 8) and 256·(t % 8) + 1 of the
      padded sequence.

  So in either case the 258-row buffer the taps read is the padded sequence from position 256·(t % 8) on.
-/
import proofs.«166053_j68470368633596_1_alg».proof.Proof.Gen.KernelIdeal.Value
import proofs.«166053_j68470368633596_1_alg».proof.Proof.CasePieces
import proofs.«166053_j68470368633596_1_alg».proof.Proof.TileMath
import proofs.«166053_j68470368633596_1_alg».proof.Proof.BlockReads
import proofs.«166053_j68470368633596_1_alg».proof.Proof.ConvSpec
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.ValueIdx

namespace Cert.KernelIdeal.Point

open Cert.KernelIdeal Cert.KernelIdeal.Gen Cert.KernelIdeal.Blocks Cert.KernelIdeal.Tile Cert.ShortConv

variable (m : (ℓ : Loc nD τ sig) → Buf (Elt Ideal) ℓ)

/-- The in-projection of row r of point t's tile. -/
theorem inProj_pt (c : Dev nD) (t : Fin cfg0.N) (r : Fin 256) (e : Fin 3072) :
    k0_pay4 (xBlk m c t) (winBlk m c t) (binBlk m c t) (ix2 r e) = inProj (xArr m c) (winArr m c) (binArr m c) (batchOf t) (stepOf t r) e := by
  refine (inProj_tile (xBlk m c t) (winBlk m c t) (binBlk m c t) r e).trans ?_
  unfold inProj
  exact congrArg₂ (· + ·) (Finset.sum_congr rfl fun d _ => congrArg₂ (· * ·) (x_blk m c t 0 r d) (win_blk m c t d e)) (bin_blk m c t e)

/-- The gate product of row r of point t's tile. -/
theorem gateProd_pt (c : Dev nD) (t : Fin cfg0.N) (r : Fin 256) (d : Fin 1024) :
    k0_pay5 (xBlk m c t) (winBlk m c t) (binBlk m c t) (ix2 r d) = gateProd (xArr m c) (winArr m c) (binArr m c) (batchOf t) (stepOf t r) d := by
  refine (gateProd_tile (xBlk m c t) (winBlk m c t) (binBlk m c t) r d).trans ?_
  unfold gateProd
  exact congrArg₂ (· * ·) (inProj_pt m c t r _) (inProj_pt m c t r _)

/-- What any point leaves in the carried rows: the last two rows of its own gate product. -/
theorem carry_after (c : Dev nD) (t : Fin cfg0.N) :
    (outsAt0 m c t.val t.isLt).2 = k0_pay1 (k0_pay5 (xBlk m c t) (winBlk m c t) (binBlk m c t)) := by
  by_cases h0 : t.val % 8 = 0
  · rw [outsAt0_A m c t h0]
    dsimp only
    exact Pieces.carry_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t)
  · rw [outsAt0_B m c t h0]
    dsimp only
    exact Pieces.carry_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2

/-- The padded gate-product sequence of point t's batch, at channel d. -/
abbrev seqOf (c : Dev nD) (t : Fin cfg0.N) (d : Fin 1024) : ℕ → EReal :=
  padded (fun l' => gateProd (xArr m c) (winArr m c) (binArr m c) (batchOf t) l' d)

/-- At a sequence's first tile the cleared rows are the padded sequence's two zero rows. -/
theorem carried_first (c : Dev nD) (t : Fin cfg0.N) (h0 : t.val % 8 = 0) (d : Fin 1024) (j : Fin 2) :
    k0_pay3 (F := Ideal) (ix2 j d) = seqOf m c t d (256 * (t.val % 8) + j.val) := by
  rw [zero_tile]
  exact (padded_lt _ _ (by have := j.isLt; omega)).symm

/-- At a later tile the rows point t - 1 left are the padded sequence just before the tile. -/
theorem carried_later (c : Dev nD) (t : Fin cfg0.N) (h0 : ¬t.val % 8 = 0) (d : Fin 1024) (j : Fin 2) :
    (outsAt0 m c (t.val - 1) (Nat.lt_of_le_of_lt (Nat.sub_le _ _) t.isLt)).2 (ix2 j d) = seqOf m c t d (256 * (t.val % 8) + j.val) := by
  have hN := point_lt t
  have hj := j.isLt
  let t' : Fin cfg0.N := ⟨t.val - 1, Nat.lt_of_le_of_lt (Nat.sub_le _ _) t.isLt⟩
  have hb : batchOf t' = batchOf t := Fin.ext (by show (t.val - 1) / 8 = t.val / 8; omega)
  refine (congrFun (carry_after m c t') (ix2 j d)).trans ?_
  refine (carry_tile _ j d).trans ?_
  refine (gateProd_pt m c t' (⟨254 + j.val, by omega⟩ : Fin 256) d).trans ?_
  rw [hb]
  exact (padded_ge (fun l' => gateProd (xArr m c) (winArr m c) (binArr m c) (batchOf t) l' d) (256 * (t.val % 8) + j.val) (by omega) (by omega) (stepOf t' (⟨254 + j.val, by omega⟩ : Fin 256))
    (by show 256 * ((t.val - 1) % 8) + (254 + j.val) + 2 = 256 * (t.val % 8) + j.val; omega)).symm

/-- The 258-row buffer the taps read is the padded sequence from position 256·(t % 8) on. -/
theorem buf_pt (c : Dev nD) (t : Fin cfg0.N) (cr : Vec Ideal S2x1024 .f32) (d : Fin 1024)
    (hcr : ∀ j : Fin 2, cr (ix2 j d) = seqOf m c t d (256 * (t.val % 8) + j.val)) (n : ℕ) (hn : n < 258) :
    tileBuf cr (k0_pay5 (xBlk m c t) (winBlk m c t) (binBlk m c t)) d n = seqOf m c t d (256 * (t.val % 8) + n) := by
  have hN := point_lt t
  unfold tileBuf
  by_cases h : n < 2
  · rw [dif_pos h]
    exact hcr ⟨n, h⟩
  · have h' : n - 2 < 256 := by omega
    rw [dif_neg h, dif_pos h']
    refine (gateProd_pt m c t (⟨n - 2, h'⟩ : Fin 256) d).trans ?_
    exact (padded_ge (fun l' => gateProd (xArr m c) (winArr m c) (binArr m c) (batchOf t) l' d) (256 * (t.val % 8) + n) (by omega) (by omega) (stepOf t (⟨n - 2, h'⟩ : Fin 256))
      (by show 256 * (t.val % 8) + (n - 2) + 2 = 256 * (t.val % 8) + n; omega)).symm

/-- The gated taps of row r of point t's tile, whatever carried rows read as the padded sequence. -/
theorem gated_pt (c : Dev nD) (t : Fin cfg0.N) (cr : Vec Ideal S2x1024 .f32)
    (hcr : ∀ (d : Fin 1024) (j : Fin 2), cr (ix2 j d) = seqOf m c t d (256 * (t.val % 8) + j.val))
    (r : Fin 256) (d : Fin 1024) :
    k0_pay6 (xBlk m c t) (winBlk m c t) (binBlk m c t) cr (Pieces.wcol0 (wBlk m c t)) (Pieces.wcol1 (wBlk m c t)) (Pieces.wcol2 (wBlk m c t)) (ix2 r d) = gated (xArr m c) (winArr m c) (binArr m c) (wArr m c) (batchOf t) (stepOf t r) d := by
  have hr := r.isLt
  refine (gated_tile (xBlk m c t) (winBlk m c t) (binBlk m c t) cr (Pieces.wcol0 (wBlk m c t)) (Pieces.wcol1 (wBlk m c t)) (Pieces.wcol2 (wBlk m c t)) r d).trans ?_
  unfold gated taps
  refine congrArg₂ (· * ·) (inProj_pt m c t r _) ?_
  refine congrArg₂ (· + ·) (congrArg₂ (· + ·) (congrArg₂ (· * ·) ?_ ?_) (congrArg₂ (· * ·) ?_ ?_)) (congrArg₂ (· * ·) ?_ ?_)
  · exact (wcol0_apply _ d).trans (w_blk m c t d 0)
  · exact (buf_pt m c t cr d (hcr d) (r.val + 0) (by omega)).trans
      (congrArg (seqOf m c t d) (by show 256 * (t.val % 8) + (r.val + 0) = 256 * (t.val % 8) + r.val; omega))
  · exact (wcol1_apply _ d).trans (w_blk m c t d 1)
  · exact (buf_pt m c t cr d (hcr d) (r.val + 1) (by omega)).trans
      (congrArg (seqOf m c t d) (by show 256 * (t.val % 8) + (r.val + 1) = 256 * (t.val % 8) + r.val + 1; omega))
  · exact (wcol2_apply _ d).trans (w_blk m c t d 2)
  · exact (buf_pt m c t cr d (hcr d) (r.val + 2) (by omega)).trans
      (congrArg (seqOf m c t d) (by show 256 * (t.val % 8) + (r.val + 2) = 256 * (t.val % 8) + r.val + 2; omega))

/-- The out-projection of row r of point t's tile. -/
theorem out_pt (c : Dev nD) (t : Fin cfg0.N) (cr : Vec Ideal S2x1024 .f32)
    (hcr : ∀ (d : Fin 1024) (j : Fin 2), cr (ix2 j d) = seqOf m c t d (256 * (t.val % 8) + j.val))
    (u : Fin 1) (r : Fin 256) (e : Fin 1024) :
    k0_pay2 (k0_pay6 (xBlk m c t) (winBlk m c t) (binBlk m c t) cr (Pieces.wcol0 (wBlk m c t)) (Pieces.wcol1 (wBlk m c t)) (Pieces.wcol2 (wBlk m c t))) (woutBlk m c t) (boutBlk m c t) (ix3 u r e)
      = outProj (xArr m c) (winArr m c) (binArr m c) (wArr m c) (woutArr m c) (boutArr m c) (batchOf t) (stepOf t r) e := by
  refine (outProj_tile _ (woutBlk m c t) (boutBlk m c t) u r e).trans ?_
  unfold outProj
  exact congrArg₂ (· + ·) (Finset.sum_congr rfl fun d _ => congrArg₂ (· * ·) (gated_pt m c t cr hcr r d) (wout_blk m c t d e)) (bout_blk m c t e)

/-- What point t leaves in the output tile's buffer: the specification's result on the tile's rows. -/
theorem outs_pt (c : Dev nD) (t : Fin cfg0.N) (u : Fin 1) (r : Fin 256) (e : Fin 1024) :
    (outsAt0 m c t.val t.isLt).1 (ix3 u r e) = outProj (xArr m c) (winArr m c) (binArr m c) (wArr m c) (woutArr m c) (boutArr m c) (batchOf t) (stepOf t r) e := by
  by_cases h0 : t.val % 8 = 0
  · rw [outsAt0_A m c t h0]
    dsimp only
    exact (congrFun (Pieces.out_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t)) (ix3 u r e)).trans
      (out_pt m c t (k0_pay3 (F := Ideal)) (fun d j => carried_first m c t h0 d j) u r e)
  · rw [outsAt0_B m c t h0]
    dsimp only
    exact (congrFun (Pieces.out_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2) (ix3 u r e)).trans
      (out_pt m c t (outsAt0 m c (t.val - 1) (Nat.lt_of_le_of_lt (Nat.sub_le _ _) t.isLt)).2 (fun d j => carried_later m c t h0 d j) u r e)

end Cert.KernelIdeal.Point

end
-- ==== Proof.KernelArray.lean ====
/-
  The kernel's result array is the specification's.

  Point t writes back one 1 × 256 × 1024 tile of the result: batch t / 8, rows 256·(t % 8) … + 255, every channel.
  What it writes there is the specification's result on those rows, and the 128 tiles tile the array — row l of
  batch b lies in the tile of point 8·b + l / 256 — so after the run every entry is the specification's.
-/
import proofs.«166053_j68470368633596_1_alg».proof.Proof.Gen.KernelIdeal.Value
import proofs.«166053_j68470368633596_1_alg».proof.Proof.PointValue
import proofs.«166053_j68470368633596_1_alg».proof.Proof.BlockReads
import proofs.«166053_j68470368633596_1_alg».proof.Proof.ConvSpec
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.ValueIdx
open Idealize.ShloMosaic.Pipeline (Dat)

namespace Cert.KernelIdeal.Final

open Cert.KernelIdeal Cert.KernelIdeal.Gen Cert.KernelIdeal.Blocks Cert.KernelIdeal.Point Cert.ShortConv

variable (m : (ℓ : Loc nD τ sig) → Buf (Elt Ideal) ℓ) (ρ : Dev nD → PrngReg)

/-- The specification's result of core c's argument arrays. -/
abbrev specOf (c : Dev nD) : S16x2048x1024.Idx → EReal :=
  result (xArr m c) (winArr m c) (binArr m c) (wArr m c) (woutArr m c) (boutArr m c)

/-- What point t leaves in the output tile's buffer, at any index of the tile. -/
theorem outs_at (c : Dev nD) (t : Fin cfg0.N) (y : S1x256x1024.Idx) :
    (outsAt0 m c t.val t.isLt).1 y = outProj (xArr m c) (winArr m c) (binArr m c) (wArr m c) (woutArr m c) (boutArr m c) (batchOf t) (stepOf t (y 1)) (y 2) := by
  obtain ⟨u, r, e, rfl⟩ : ∃ (u : Fin 1) (r : Fin 256) (e : Fin 1024), y = ix3 u r e := ⟨y 0, y 1, y 2, eq_ix3 y⟩
  exact outs_pt m c t u r e

/-- What point t writes back is its tile of the specification's result. -/
theorem flushed_eq (c : Dev nD) (t : Fin cfg0.N) :
    (dats m 0 c).flushed 6 t = ((cfg0.win 6).blk t).view.read (Elt Ideal) (specOf m c) := by
  rw [Value.flushed6]
  obtain ⟨-, -, -, e0, e1, e2, -⟩ := idx_facts t
  funext y
  have hy0 : (y 0).val < 1 := (y 0).isLt
  have h0 : (((cfg0.win 6).blk t).view.emb y) 0 = batchOf t :=
    Fin.ext (by show win0_6.index t (0 : Fin 3) * 1 + 1 * (y 0).val = t.val / 8; omega)
  have h1 : (((cfg0.win 6).blk t).view.emb y) 1 = stepOf t (y 1) :=
    Fin.ext (by show win0_6.index t (1 : Fin 3) * 256 + 1 * (y 1).val = 256 * (t.val % 8) + (y 1).val; omega)
  have h2 : (((cfg0.win 6).blk t).view.emb y) 2 = y 2 :=
    Fin.ext (by show win0_6.index t (2 : Fin 3) * 1024 + 1 * (y 2).val = (y 2).val; omega)
  show (outsAt0 m c t.val t.isLt).1 y
    = outProj (xArr m c) (winArr m c) (binArr m c) (wArr m c) (woutArr m c) (boutArr m c) ((((cfg0.win 6).blk t).view.emb y) 0) ((((cfg0.win 6).blk t).view.emb y) 1) ((((cfg0.win 6).blk t).view.emb y) 2)
  rw [h0, h1, h2]
  exact outs_at m c t y

/-- An index of the array is in point t's tile iff each coordinate is in the tile's range on its axis. -/
theorem mem_tile (t : Fin cfg0.N) (i : S16x2048x1024.Idx) :
    i ∈ ((cfg0.win 6).blk t).view.set ↔ ∀ a : Fin 3, win0_6.index t a * S1x256x1024.size a ≤ (i a).val
      ∧ (i a).val < win0_6.index t a * S1x256x1024.size a + S1x256x1024.size a := by
  show i ∈ ((View.whole main_v4).slice (win0_6.rect t)).set ↔ _
  rw [View.set_slice_whole, Rect.mem_set_unit]
  exact Iff.rfl

/-- Every entry of the result lies in some point's tile. -/
theorem tiles_cover (i : S16x2048x1024.Idx) :
    ∃ t : Fin cfg0.N, (cfg0.win 6).flush t = true ∧ i ∈ ((cfg0.win 6).blk t).view.set := by
  have hi0 : (i 0).val < 16 := (i 0).isLt
  have hi1 : (i 1).val < 2048 := (i 1).isLt
  have hi2 : (i 2).val < 1024 := (i 2).isLt
  have hN : cfg0.N = 128 := N_0
  obtain ⟨t, ht⟩ : ∃ t : Fin cfg0.N, t.val = 8 * (i 0).val + (i 1).val / 256 := ⟨⟨8 * (i 0).val + (i 1).val / 256, by omega⟩, rfl⟩
  obtain ⟨-, -, -, e0, e1, e2, -⟩ := idx_facts t
  refine ⟨t, flush0_6 t, ?_⟩
  rw [mem_tile]
  intro a
  match a with
  | ⟨0, _⟩ =>
    show win0_6.index t (0 : Fin 3) * 1 ≤ (i 0).val ∧ (i 0).val < win0_6.index t (0 : Fin 3) * 1 + 1
    omega
  | ⟨1, _⟩ =>
    show win0_6.index t (1 : Fin 3) * 256 ≤ (i 1).val ∧ (i 1).val < win0_6.index t (1 : Fin 3) * 256 + 256
    omega
  | ⟨2, _⟩ =>
    show win0_6.index t (2 : Fin 3) * 1024 ≤ (i 2).val ∧ (i 2).val < win0_6.index t (2 : Fin 3) * 1024 + 1024
    omega

/-- After the run the result array holds the specification's result. -/
theorem final (c : Dev nD) : (dats m 0 c).arrAt 6 cfg0.N = specOf m c :=
  (dats m 0 c).arrAt_eq_of_cover 6 (specOf m c) (fun t _ => flushed_eq m c t) tiles_cover

/-- The kernel's run: the result array at the specification's result, the arguments unchanged. -/
theorem run : θ_run defs (onTc (τ := τ) (main (F := Ideal))) ⟨m, fun _ => 0, ρ⟩ fun r => ∀ c : Dev nD,
      r.2.mem ((c : Thread nD τ).loc main_v4) = specOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Final

end
-- ==== Proof.RefSpec.lean ====
/-
  The reference program, stage by stage, is the specification.

  Its in-projection is one product of x with the weights, contracting the channel axis, plus the broadcast bias; its
  three thirds are slices of the last axis.  The causal shift is a pad of two zero rows in front of the time axis —
  the pad value is the integer zero converted, the number 0 — followed by the three slices that start at rows 0, 1
  and 2; each tap weight is one column of the weight array laid along batch and time.  The out-projection is again one
  product plus the broadcast bias.
-/
import proofs.«166053_j68470368633596_1_alg».proof.Proof.Gen.ReferenceIdeal.Read
import proofs.«166053_j68470368633596_1_alg».proof.Proof.ConvSpec
import Idealize.ShloMosaic.Lib.KernelVsHost
import Idealize.ShloMosaic.Lib.Pipeline.Value
import Idealize.ShloMosaic.Lib.ValueIdx
import Idealize.ShloMosaic.PureOps.Ideal.Laws

set_option maxRecDepth 16384

noncomputable section

open Idealize.ShloMosaic Idealize.ShloMosaic.TcCoe Idealize.SL.Sem
open Idealize.ShloMosaic.ValueIdx

namespace Cert.ReferenceIdeal.Spec

open Cert.ReferenceIdeal Cert.ReferenceIdeal.Gen Cert.ReferenceIdeal.Read Cert.ShortConv

variable (x0 : S16x2048x1024.Idx → EReal) (x1 : S3072x1024.Idx → EReal) (x2 : S3072.Idx → EReal)
  (x3 : S1024x3.Idx → EReal) (x4 : S1024x1024.Idx → EReal) (x5 : S1024.Idx → EReal)

/-- The biased in-projection at (b, l, e). -/
theorem ref_inProj (b : Fin 16) (l : Fin 2048) (e : Fin 3072) :
    val_main_v3 (F := Ideal) x0 x1 x2 (ix3 b l e) = inProj x0 x1 x2 b l e := by
  rw [val_main_v3_apply, val_main_v0_apply, val_main_v2_apply, val_main_v1_apply]
  have el : ∀ k : Fin 1024, lidx_main_v0 (ix3 b l e) k = ix3 b l k := fun k => funext fun a => by
    match a with | ⟨0, _⟩ => rfl | ⟨1, _⟩ => rfl | ⟨2, _⟩ => rfl
  have er : ∀ k : Fin 1024, ridx_main_v0 (ix3 b l e) k = ix2 e k := fun k => funext fun a => by
    match a with | ⟨0, _⟩ => rfl | ⟨1, _⟩ => rfl
  have eb : idx_main_v1 (idx_main_v2 (ix3 b l e)) = ix1 e := funext fun a => by
    match a with | ⟨0, _⟩ => rfl
  simp only [el, er, eb]
  rfl

/-- The gate product at (b, l, d): the first third of the channels times the third third. -/
theorem ref_gateProd (b : Fin 16) (l : Fin 2048) (d : Fin 1024) :
    val_main_v7 (F := Ideal) x0 x1 x2 (ix3 b l d) = gateProd x0 x1 x2 b l d := by
  rw [val_main_v7_apply, val_main_v4_apply, val_main_v6_apply]
  have e4 : idx_main_v4 (ix3 b l d) = ix3 b l (⟨d.val, by omega⟩ : Fin 3072) := funext fun a => by
    match a with | ⟨0, _⟩ => rfl | ⟨1, _⟩ => rfl | ⟨2, _⟩ => rfl
  have e6 : idx_main_v6 (ix3 b l d) = ix3 b l (⟨2048 + d.val, by omega⟩ : Fin 3072) := funext fun a => by
    match a with | ⟨0, _⟩ => rfl | ⟨1, _⟩ => rfl | ⟨2, _⟩ => rfl
  rw [e4, e6, ref_inProj, ref_inProj]
  rfl

/-- The gating third at (b, l, d): the middle third of the channels. -/
theorem ref_gate (b : Fin 16) (l : Fin 2048) (d : Fin 1024) :
    val_main_v5 (F := Ideal) x0 x1 x2 (ix3 b l d) = inProj x0 x1 x2 b l (⟨1024 + d.val, by omega⟩ : Fin 3072) := by
  rw [val_main_v5_apply]
  have e5 : idx_main_v5 (ix3 b l d) = ix3 b l (⟨1024 + d.val, by omega⟩ : Fin 3072) := funext fun a => by
    match a with | ⟨0, _⟩ => rfl | ⟨1, _⟩ => rfl | ⟨2, _⟩ => rfl
  rw [e5, ref_inProj]

/-- The padded gate product at position n of the 2050 rows. -/
theorem ref_padded (b : Fin 16) (n : Fin 2050) (d : Fin 1024) :
    val_main_v8 (F := Ideal) x0 x1 x2 (ix3 b n d) = padded (fun l' => gateProd x0 x1 x2 b l' d) n.val := by
  unfold val_main_v8
  by_cases h2 : 2 ≤ n.val
  · have hk : n.val - 2 < 2048 := by have := n.isLt; omega
    rw [padded_ge _ _ h2 n.isLt (⟨n.val - 2, hk⟩ : Fin 2048) (by show n.val - 2 + 2 = n.val; omega)]
    refine (pad_apply_of_inside _ _ _ _ _ _ _ (ix3 b n d) (ix3 b (⟨n.val - 2, hk⟩ : Fin 2048) d) fun a => ?_).trans
      (ref_gateProd x0 x1 x2 b _ d)
    match a with
    | ⟨0, _⟩ => show b.val = 0 + b.val * (0 + 1); omega
    | ⟨1, _⟩ => show n.val = 2 + (n.val - 2) * (0 + 1); omega
    | ⟨2, _⟩ => show d.val = 0 + d.val * (0 + 1); omega
  · rw [padded_lt _ _ (by omega)]
    refine (pad_apply_of_not_inside _ _ _ _ _ _ _ (ix3 b n d) (1 : Fin 3) ?_).trans ?_
    · show ¬(2 ≤ n.val ∧ (n.val - 2) % (0 + 1) = 0 ∧ (n.val - 2) / (0 + 1) < 2048)
      omega
    · exact sitofp_zero (φ := .f32)

/-- The three shifted reads of the padded gate product. -/
theorem ref_tap0 (b : Fin 16) (l : Fin 2048) (d : Fin 1024) :
    val_main_v11 (F := Ideal) x0 x1 x2 (ix3 b l d) = padded (fun l' => gateProd x0 x1 x2 b l' d) l.val := by
  rw [val_main_v11_apply]
  have e : idx_main_v11 (ix3 b l d) = ix3 b (⟨l.val, by omega⟩ : Fin 2050) d := funext fun a => by
    match a with | ⟨0, _⟩ => rfl | ⟨1, _⟩ => rfl | ⟨2, _⟩ => rfl
  rw [e, ref_padded]
theorem ref_tap1 (b : Fin 16) (l : Fin 2048) (d : Fin 1024) :
    val_main_v17 (F := Ideal) x0 x1 x2 (ix3 b l d) = padded (fun l' => gateProd x0 x1 x2 b l' d) (l.val + 1) := by
  rw [val_main_v17_apply]
  have e : idx_main_v17 (ix3 b l d) = ix3 b (⟨l.val + 1, by omega⟩ : Fin 2050) d := funext fun a => Fin.ext (by
    match a with
    | ⟨0, _⟩ => rfl
    | ⟨1, _⟩ => show 1 + l.val = l.val + 1; omega
    | ⟨2, _⟩ => rfl)
  rw [e, ref_padded]
theorem ref_tap2 (b : Fin 16) (l : Fin 2048) (d : Fin 1024) :
    val_main_v24 (F := Ideal) x0 x1 x2 (ix3 b l d) = padded (fun l' => gateProd x0 x1 x2 b l' d) (l.val + 2) := by
  rw [val_main_v24_apply]
  have e : idx_main_v24 (ix3 b l d) = ix3 b (⟨l.val + 2, by omega⟩ : Fin 2050) d := funext fun a => Fin.ext (by
    match a with
    | ⟨0, _⟩ => rfl
    | ⟨1, _⟩ => show 2 + l.val = l.val + 2; omega
    | ⟨2, _⟩ => rfl)
  rw [e, ref_padded]

/-- The three tap weights laid along batch and time: at (b, l, d) the weight array at (d, s). -/
theorem ref_weight0 (b : Fin 16) (l : Fin 2048) (d : Fin 1024) :
    val_main_v13 (F := Ideal) x3 (ix3 b l d) = x3 (ix2 d (0 : Fin 3)) := by
  rw [val_main_v13_apply, val_main_v12_apply, val_main_v10_apply, val_main_v9_apply]
  refine congrArg x3 (funext fun a => Fin.ext ?_)
  match a with
  | ⟨0, _⟩ => show d.val / 1 = d.val; omega
  | ⟨1, _⟩ => rfl
theorem ref_weight1 (b : Fin 16) (l : Fin 2048) (d : Fin 1024) :
    val_main_v19 (F := Ideal) x3 (ix3 b l d) = x3 (ix2 d (1 : Fin 3)) := by
  rw [val_main_v19_apply, val_main_v18_apply, val_main_v16_apply, val_main_v15_apply]
  refine congrArg x3 (funext fun a => Fin.ext ?_)
  match a with
  | ⟨0, _⟩ => show d.val / 1 = d.val; omega
  | ⟨1, _⟩ => rfl
theorem ref_weight2 (b : Fin 16) (l : Fin 2048) (d : Fin 1024) :
    val_main_v26 (F := Ideal) x3 (ix3 b l d) = x3 (ix2 d (2 : Fin 3)) := by
  rw [val_main_v26_apply, val_main_v25_apply, val_main_v23_apply, val_main_v22_apply]
  refine congrArg x3 (funext fun a => Fin.ext ?_)
  match a with
  | ⟨0, _⟩ => show d.val / 1 = d.val; omega
  | ⟨1, _⟩ => rfl

/-- The gated taps at (b, l, d). -/
theorem ref_gated (b : Fin 16) (l : Fin 2048) (d : Fin 1024) :
    val_main_v29 (F := Ideal) x0 x1 x2 x3 (ix3 b l d) = gated x0 x1 x2 x3 b l d := by
  rw [val_main_v29_apply, val_main_v28_apply, val_main_v21_apply, val_main_v14_apply, val_main_v20_apply, val_main_v27_apply,
    ref_gate, ref_weight0, ref_weight1, ref_weight2, ref_tap0, ref_tap1, ref_tap2]
  rfl

/-- The result at (b, l, e). -/
theorem ref_out (b : Fin 16) (l : Fin 2048) (e : Fin 1024) :
    val_main_v33 (F := Ideal) x0 x1 x2 x3 x4 x5 (ix3 b l e) = outProj x0 x1 x2 x3 x4 x5 b l e := by
  rw [val_main_v33_apply, val_main_v30_apply, val_main_v32_apply, val_main_v31_apply]
  have el : ∀ k : Fin 1024, lidx_main_v30 (ix3 b l e) k = ix3 b l k := fun k => funext fun a => by
    match a with | ⟨0, _⟩ => rfl | ⟨1, _⟩ => rfl | ⟨2, _⟩ => rfl
  have er : ∀ k : Fin 1024, ridx_main_v30 (ix3 b l e) k = ix2 e k := fun k => funext fun a => by
    match a with | ⟨0, _⟩ => rfl | ⟨1, _⟩ => rfl
  have eb : idx_main_v31 (idx_main_v32 (ix3 b l e)) = ix1 e := funext fun a => by
    match a with | ⟨0, _⟩ => rfl
  simp only [el, er, eb, ref_gated]
  rfl

/-- The reference's result array is the specification's. -/
theorem ref_result : val_main_v33 (F := Ideal) x0 x1 x2 x3 x4 x5 = result x0 x1 x2 x3 x4 x5 := by
  funext i
  obtain ⟨b, l, e, rfl⟩ : ∃ (b : Fin 16) (l : Fin 2048) (e : Fin 1024), i = ix3 b l e := ⟨i 0, i 1, i 2, eq_ix3 i⟩
  rw [ref_out, result_ix3]

end Cert.ReferenceIdeal.Spec

end
-- ==== Proof.lean ====
/-
  A gated causal depthwise convolution between two projections, computed tile by tile over time with two carried
  rows, against the same computation written over the whole sequence.

  For a batch b, a time step l and a channel (1024 channels, 3072 after the in-projection):

      P(b,l,e) = (Σ_d x(b,l,d) · Win(e,d)) + bin(e)
      B(b,l,d) = P(b,l,d) · P(b,l,2048+d)
      C(b,l,d) = (w(d,0) · B(b,l-2,d) + w(d,1) · B(b,l-1,d)) + w(d,2) · B(b,l,d),   B before the sequence's start read as 0
      Y(b,l,d) = P(b,l,1024+d) · C(b,l,d)
      O(b,l,e) = (Σ_d Y(b,l,d) · Wout(e,d)) + bout(e)

  The reference computes O with whole-array operations: two matrix products, slices, a pad of two zero rows in
  front of the time axis and three shifted slices of it (Proof/RefSpec.lean).  The kernel walks a 16 × 8 grid, a batch
  and a tile of 256 time steps at a point, the tiles of a sequence in order; it receives both weight matrices
  transposed, computes P, B, C, Y and O on the tile, and hands the last two rows of B to the next tile through a small
  buffer that it clears at a sequence's first tile (Proof/TileMath.lean, Proof/PointValue.lean).  On the extended reals
  a change of float format is the identity and a matrix product into a zero accumulator is the plain sum over the
  contracted coordinate, so both programs compute O, entry by entry (Proof/ConvSpec.lean states it once); nothing of
  real arithmetic is used beyond reading the same sums and products on both sides, and the inputs' finiteness is
  never needed.  The idealized kernel is the kernel's own text read on the extended reals: no rewrite to account for.
-/
import proofs.«166053_j68470368633596_1_alg».proof.Defs
import proofs.«166053_j68470368633596_1_alg».proof.Proof.Gen.Kernel
import proofs.«166053_j68470368633596_1_alg».proof.Proof.Gen.Kernel.Frame
import proofs.«166053_j68470368633596_1_alg».proof.Proof.Gen.KernelIdeal
import proofs.«166053_j68470368633596_1_alg».proof.Proof.Gen.KernelIdeal.Frame
import proofs.«166053_j68470368633596_1_alg».proof.Proof.Gen.KernelIdeal.Value
import proofs.«166053_j68470368633596_1_alg».proof.Proof.Gen.ReferenceIdeal
import proofs.«166053_j68470368633596_1_alg».proof.Proof.Gen.ReferenceIdeal.Run
import proofs.«166053_j68470368633596_1_alg».proof.Proof.Gen.ReferenceIdeal.Read
import proofs.«166053_j68470368633596_1_alg».proof.Proof.Gen.Pre_finite_inputs
import proofs.«166053_j68470368633596_1_alg».proof.Proof.KernelArray
import proofs.«166053_j68470368633596_1_alg».proof.Proof.RefSpec
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on the six arguments both programs end with the result array at O of those arguments. -/
theorem algebraic : Cert.algebraic_KernelIdeal_ReferenceIdeal := by
  intro m ρ m' ρ' _ hagree
  refine ⟨fun c => Cert.KernelIdeal.Final.specOf m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v33_eq, (hagree c).1, (hagree c).2.1, (hagree c).2.2.1, (hagree c).2.2.2.1,
    (hagree c).2.2.2.2.1, (hagree c).2.2.2.2.2]
  exact Cert.ReferenceIdeal.Spec.ref_result _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
